-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x12x5000 : Shape := ⟨4, ![16, 64, 12, 5000]⟩
abbrev S5000x5000 : Shape := ⟨2, ![5000, 5000]⟩
abbrev S64x64 : Shape := ⟨2, ![64, 64]⟩
abbrev S64 : Shape := ⟨1, ![64]⟩
abbrev S_ : Shape := ⟨0, ![]⟩

class Facts : Prop where
  bcast_S_S16x64x12x5000 : S_.BroadcastsInDim S16x64x12x5000 (![] : Fin 0 → Fin S16x64x12x5000.rank)
  reducesTo_S16x64x12x5000_S_d0_1_2_3 : S16x64x12x5000.ReducesTo [0, 1, 2, 3] S_
  h_S_ : 0 < S_.numel
  bcast_S_S5000x5000 : S_.BroadcastsInDim S5000x5000 (![] : Fin 0 → Fin S5000x5000.rank)
  reducesTo_S5000x5000_S_d0_1 : S5000x5000.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16x64x12x5000 .f32) (main_arg1 : FVec F S5000x5000 .f32) (main_arg2 : FVec F S64x64 .f32) (main_arg3 : FVec F S64 .f32) : IVec S_ 1 :=
  let main_v0 : FVec F S16x64x12x5000 .f32 := Host.absf main_arg0
  let main_cst : FVec F S_ .f32 := constant S_ .f32 0x7F800000#32
  let main_v1 : FVec F S16x64x12x5000 .f32 := broadcastInDim S16x64x12x5000 ![] bcast_S_S16x64x12x5000 main_cst
  let main_v2 : IVec S16x64x12x5000 1 := cmpf .olt main_v0 main_v1
  let main_c : IVec S_ 1 := constantI S_ 1 1#1
  let main_v3 : IVec S_ 1 := (fun x v => Host.reduce IntOp.andi x v reducesTo_S16x64x12x5000_S_d0_1_2_3 h_S_) main_v2 main_c
  let main_v4 : FVec F S5000x5000 .f32 := Host.absf main_arg1
  let main_cst_0 : FVec F S_ .f32 := constant S_ .f32 0x7F800000#32
  let main_v5 : FVec F S5000x5000 .f32 := broadcastInDim S5000x5000 ![] bcast_S_S5000x5000 main_cst_0
  let main_v6 : IVec S5000x5000 1 := cmpf .olt main_v4 main_v5
  let main_c_1 : IVec S_ 1 := constantI S_ 1 1#1
  let main_v7 : IVec S_ 1 := (fun x v => Host.reduce IntOp.andi x v reducesTo_S5000x5000_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16x64x12x5000 : Shape := ⟨4, ![16, 64, 12, 5000]⟩
abbrev S5000x5000 : Shape := ⟨2, ![5000, 5000]⟩
abbrev S64x64 : Shape := ⟨2, ![64, 64]⟩
abbrev S64 : Shape := ⟨1, ![64]⟩
abbrev S960000x64 : Shape := ⟨2, ![960000, 64]⟩
abbrev S8000x64 : Shape := ⟨2, ![8000, 64]⟩
abbrev S5000x12288 : Shape := ⟨2, ![5000, 12288]⟩
abbrev S1x64 : Shape := ⟨2, ![1, 64]⟩
abbrev S16x64 : Shape := ⟨2, ![16, 64]⟩
abbrev S1024 : Shape := ⟨1, ![1024]⟩
abbrev S1000x5000 : Shape := ⟨2, ![1000, 5000]⟩
abbrev S5000x1024 : Shape := ⟨2, ![5000, 1024]⟩
abbrev S1000x1024 : Shape := ⟨2, ![1000, 1024]⟩
abbrev S1x1024 : Shape := ⟨2, ![1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S16x64x12x5000, .f32⟩
  | .hbm, ⟨1, _⟩ => ⟨S5000x5000, .f32⟩
  | .hbm, ⟨2, _⟩ => ⟨S64x64, .f32⟩
  | .hbm, ⟨3, _⟩ => ⟨S64, .f32⟩
  | .hbm, ⟨4, _⟩ => ⟨S960000x64, .f32⟩
  | .hbm, ⟨5, _⟩ => ⟨S960000x64, .bf16⟩
  | .hbm, ⟨6, _⟩ => ⟨S5000x12288, .bf16⟩
  | .hbm, ⟨7, _⟩ => ⟨S5000x5000, .bf16⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S5000x12288, .f32⟩
  | .hbm, ⟨12, _⟩ => ⟨S960000x64, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S8000x64, .bf16⟩
  | .local _ .vmem, ⟨4, _⟩ => ⟨S8000x64, .bf16⟩
  | .local _ .vmem, ⟨5, _⟩ => ⟨S1000x5000, .bf16⟩
  | .local _ .vmem, ⟨6, _⟩ => ⟨S1000x5000, .bf16⟩
  | .local _ .vmem, ⟨7, _⟩ => ⟨S5000x1024, .bf16⟩
  | .local _ .vmem, ⟨8, _⟩ => ⟨S5000x1024, .bf16⟩
  | .local _ .vmem, ⟨9, _⟩ => ⟨S1024, .f32⟩
  | .local _ .vmem, ⟨10, _⟩ => ⟨S1000x1024, .f32⟩
  | .local _ .vmem, ⟨11, _⟩ => ⟨S1000x1024, .f32⟩
  | _, _ => ⟨S16x64x12x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![5, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1000x5000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5000x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1000x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16x64x12x5000_S960000x64 : S16x64x12x5000.ShapeCasts S960000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  packedbf16_S8000x64_S8000x64_0_0 : (Rect.unit (s := S8000x64) ![0, 0] S8000x64.size inb_S8000x64_S8000x64_0_0).PackedRows (EltTy.packing .bf16)
  shapeCasts_S960000x64_S5000x12288 : S960000x64.ShapeCasts S5000x12288
  shapeCasts_S64_S1x64 : S64.ShapeCasts S1x64
  bcast_S1x64_S16x64_0_1 : S1x64.BroadcastsInDim S16x64 (![0, 1] : Fin 2 → Fin S16x64.rank)
  shapeCasts_S16x64_S1024 : S16x64.ShapeCasts S1024
  inb_S1000x5000_S1000x5000_0_0 : ∀ a, (![0, 0] : Fin 2 → Nat) a + S1000x5000.size a ≤ S1000x5000.size a
  h_S1000x5000 : 0 < S1000x5000.numel
  shapeCasts_S1000x5000_S1000x5000 : S1000x5000.ShapeCasts S1000x5000
  inb_S5000x1024_S5000x1024_0_0 : ∀ a, (![0, 0] : Fin 2 → Nat) a + S5000x1024.size a ≤ S5000x1024.size a
  h_S5000x1024 : 0 < S5000x1024.numel
  shapeCasts_S5000x1024_S5000x1024 : S5000x1024.ShapeCasts S5000x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  shapeCasts_S5000x12288_S960000x64 : S5000x12288.ShapeCasts S960000x64
  dot_S8000x64_S64x64_S8000x64_1_0_0_1_n_n_wf : DotDims.WF S8000x64 S64x64 S8000x64 [1] [0] [0] [1] [] []
  dot_S1000x5000_S5000x1024_S1000x1024_1_0_0_1_n_n_wf : DotDims.WF S1000x5000 S5000x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S960000x64.size a
  hwx0_0 : ∀ i : grid0.Coords, EltTy.bits .f32 = 32 ∨ (Rect.block (s := S960000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S960000x64.size a
  hwx0_2 : ∀ i : grid0.Coords, EltTy.bits .bf16 = 32 ∨ (Rect.block (s := S960000x64) S8000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x5000.size a ≤ S5000x5000.size a
  hwx1_0 : ∀ i : grid1.Coords, EltTy.bits .bf16 = 32 ∨ (Rect.block (s := S5000x5000) S1000x5000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1024.size a ≤ S5000x12288.size a
  hwx1_1 : ∀ i : grid1.Coords, EltTy.bits .bf16 = 32 ∨ (Rect.block (s := S5000x12288) S5000x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1024.size a ≤ S5000x12288.size a
  hwx1_3 : ∀ i : grid1.Coords, EltTy.bits .f32 = 32 ∨ (Rect.block (s := S5000x12288) S1000x1024.size (cc1_transform_3 i) (hinb1_3 i)).WholeWords (EltTy.packing .f32)

variable [Facts₀]

def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S1000x5000_S5000x1024_S1000x1024_1_0_0_1_n_n : DotDims S1000x5000 S5000x1024 S1000x1024 where
  lhsContracting := [1]
  rhsContracting := [0]
  lhsNonContracting := [0]
  rhsNonContracting := [1]
  lhsBatch := []
  rhsBatch := []
  wf := dot_S1000x5000_S5000x1024_S1000x1024_1_0_0_1_n_n_wf

abbrev win0_0 : Pipeline.Window sig grid0 :=
  Pipeline.Window.ofSpec (Memref.whole main_v0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1000x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S5000x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1000x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x64x12x5000 : Shape := ⟨4, ![16, 64, 12, 5000]⟩
abbrev S5000x5000 : Shape := ⟨2, ![5000, 5000]⟩
abbrev S64x64 : Shape := ⟨2, ![64, 64]⟩
abbrev S64 : Shape := ⟨1, ![64]⟩
abbrev S960000x64 : Shape := ⟨2, ![960000, 64]⟩
abbrev S5000x12288 : Shape := ⟨2, ![5000, 12288]⟩
abbrev S1x64 : Shape := ⟨2, ![1, 64]⟩

abbrev nBuf : Space → Nat
  | .hbm => 12
  | .vmem => 0
  | .smem => 0
  | _ => 0

abbrev bufTy : (tb : Table) → Fin (tcTables nBuf tb) → BufTy
  | .hbm, ⟨0, _⟩ => ⟨S16x64x12x5000, .f32⟩
  | .hbm, ⟨1, _⟩ => ⟨S5000x5000, .f32⟩
  | .hbm, ⟨2, _⟩ => ⟨S64x64, .f32⟩
  | .hbm, ⟨3, _⟩ => ⟨S64, .f32⟩
  | .hbm, ⟨4, _⟩ => ⟨S960000x64, .f32⟩
  | .hbm, ⟨5, _⟩ => ⟨S960000x64, .f32⟩
  | .hbm, ⟨6, _⟩ => ⟨S5000x12288, .f32⟩
  | .hbm, ⟨7, _⟩ => ⟨S5000x12288, .f32⟩
  | .hbm, ⟨8, _⟩ => ⟨S960000x64, .f32⟩
  | .hbm, ⟨9, _⟩ => ⟨S1x64, .f32⟩
  | .hbm, ⟨10, _⟩ => ⟨S960000x64, .f32⟩
  | .hbm, ⟨11, _⟩ => ⟨S960000x64, .f32⟩
  | _, _ => ⟨S16x64x12x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S16x64x12x5000_S960000x64 : S16x64x12x5000.ShapeCasts S960000x64
  shapeCasts_S960000x64_S5000x12288 : S960000x64.ShapeCasts S5000x12288
  shapeCasts_S5000x12288_S960000x64 : S5000x12288.ShapeCasts S960000x64
  bcast_S64_S1x64_1 : S64.BroadcastsInDim S1x64 (![1] : Fin 1 → Fin S1x64.rank)
  bcast_S1x64_S960000x64_0_1 : S1x64.BroadcastsInDim S960000x64 (![0, 1] : Fin 2 → Fin S960000x64.rank)
  dot_S960000x64_S64x64_S960000x64_1_0_0_1_n_n_wf : DotDims.WF S960000x64 S64x64 S960000x64 [1] [0] [0] [1] [] []
  dot_S5000x5000_S5000x12288_S5000x12288_1_0_0_1_n_n_wf : DotDims.WF S5000x5000 S5000x12288 S5000x12288 [1] [0] [0] [1] [] []

variable [Facts₀]

def dot_S960000x64_S64x64_S960000x64_1_0_0_1_n_n : DotDims S960000x64 S64x64 S960000x64 where
  lhsContracting := [1]
  rhsContracting := [0]
  lhsNonContracting := [0]
  rhsNonContracting := [1]
  lhsBatch := []
  rhsBatch := []
  wf := dot_S960000x64_S64x64_S960000x64_1_0_0_1_n_n_wf
def dot_S5000x5000_S5000x12288_S5000x12288_1_0_0_1_n_n : DotDims S5000x5000 S5000x12288 S5000x12288 where
  lhsContracting := [1]
  rhsContracting := [0]
  lhsNonContracting := [0]
  rhsNonContracting := [1]
  lhsBatch := []
  rhsBatch := []
  wf := dot_S5000x5000_S5000x12288_S5000x12288_1_0_0_1_n_n_wf

class Facts : Prop extends Facts₀ where

variable [Facts]
-- ==== Proof.Linear.lean ====
/-
  The first launch, read as a value at the ideal instance: a [960000, 64] array times a [64, 64] matrix, 8000 rows
  at a point, 120 points. Entry (r, c) of the product array is the sum over k of the left array at (r, k) times the
  matrix at (k, c); the narrowing to bf16 on the way out is the identity on extended reals. Block t of the output
  covers rows 8000 t … 8000 t + 7999 and reads exactly those rows of the left array and the whole matrix, so what
  point t writes back is block t of ONE whole-array function, and the 120 blocks tile the array.
-/
import proofs.«152533_j17841294148275_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen
open Idealize.ShloMosaic Idealize.ShloMosaic.TcCoe Idealize.SL.Sem
open Idealize.ShloMosaic.Pipeline (Dat)

/-- (row of `i`, k): where the left factor of the k-th product of entry `i` sits. -/
abbrev lhsAt {R : Nat} (i : (⟨2, ![R, 64]⟩ : Shape).Idx) (k : Fin 64) : (⟨2, ![R, 64]⟩ : Shape).Idx := fun a => match a with
  | ⟨0, _⟩ => ⟨(i 0).val, (i 0).isLt⟩
  | ⟨1, _⟩ => ⟨k.val, k.isLt⟩
/-- (k, column of `i`): where the right factor sits. -/
abbrev rhsAt {R : Nat} (i : (⟨2, ![R, 64]⟩ : Shape).Idx) (k : Fin 64) : S64x64.Idx := fun a => match a with
  | ⟨0, _⟩ => ⟨k.val, k.isLt⟩
  | ⟨1, _⟩ => ⟨(i 1).val, (i 1).isLt⟩

/-- The product array: entry `i` = (r, c) is Σ_k xf (r, k) · w (k, c). -/
def prod (xf : S960000x64.Idx → EReal) (w : S64x64.Idx → EReal) : S960000x64.Idx → EReal :=
  fun i => ∑ k : Fin 64, xf (lhsAt i k) * w (rhsAt i k)

/-! ## The body's stored value at an index -/

theorem lhs_dot_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_dot_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_dot_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_dot_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- What the body stores, at block index `j` = (r, c): Σ_k x0 (r, k) · x1 (k, c) — the matrix unit's product into a zero
    accumulator is the plain sum, and the narrowing is the identity. -/
theorem pay_apply (x0 : FVec Ideal S8000x64 .f32) (x1 : FVec Ideal S64x64 .f32) (j : S8000x64.Idx) :
    k0_pay1 (F := Ideal) x0 x1 j = ∑ k : Fin 64, x0 (lhsAt j k) * x1 (rhsAt j k) := by
  unfold k0_pay1
  show FloatOps.matmul (F := Ideal) dot_S8000x64_S64x64_S8000x64_1_0_0_1_n_n none (shapeCast S8000x64 x0 shapeCasts_S8000x64_S8000x64) x1 (constant (F := Ideal) S8000x64 .f32 0x00000000#32) j = _
  rw [shapeCast_self, Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx j ((ValueIdx.contrEquiv1 dot_S8000x64_S64x64_S8000x64_1_0_0_1_n_n 64 rfl rfl).symm k) = lhsAt j k := funext fun a => Fin.ext (by
    match a with
    | ⟨0, _⟩ => exact lhs_dot_0 _ _
    | ⟨1, _⟩ => exact (lhs_dot_1 _ _).trans hk)
  have er : dot_S8000x64_S64x64_S8000x64_1_0_0_1_n_n.rhsIdx j ((ValueIdx.contrEquiv1 dot_S8000x64_S64x64_S8000x64_1_0_0_1_n_n 64 rfl rfl).symm k) = rhsAt j k := funext fun a => Fin.ext (by
    match a with
    | ⟨0, _⟩ => exact (rhs_dot_0 _ _).trans hk
    | ⟨1, _⟩ => exact rhs_dot_1 _ _)
  rw [el, er]

/-! ## From blocks to the array -/

variable (V : (c : Dev nD) → (b : Ref sig .tc) → Buf (Elt Ideal) ((c : Thread nD τ).loc b))

/-- The two arrays the launch reads, as it finds them, at their literal types. -/
abbrev xarr (c : Dev nD) : S960000x64.Idx → EReal := V c main_v0
abbrev warr (c : Dev nD) : S64x64.Idx → EReal := V c main_arg2

theorem hz : (![0, 0] : Fin 2 → Nat) = fun _ => 0 := funext fun a => by fin_cases a <;> rfl

/-- The printed index maps over the 120 points: the left array's block moves with the output's along the rows and both
    sit at column block 0; the matrix's one block is at (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 119 :=
  (by decide +kernel : ∀ t : Fin grid0.N, _)

/-- Every row block is some point's. -/
theorem idx_onto : ∀ q0 : Fin 120, ∃ t : Fin cfg0.N, win0_2.index t = ![q0.val, 0] :=
  (by decide +kernel : ∀ q0 : Fin 120, ∃ t : Fin grid0.N, win0_2.index t = ![q0.val, 0])

/-- What point `t` writes back is block `t` of the product of the arrays as the launch finds them. -/
theorem flushed_eq (c : Dev nD) (t : Fin cfg0.N) :
    (dat0 V c).flushed 2 t = ((cfg0.win 2).blk t).view.read (Elt Ideal) (prod (xarr V c) (warr V c)) := by
  show (cfg0.win 2).cut (grid0.coords t) ((dat0 V c).after 2 t) = _
  rw [after0_2]
  unfold out0_2
  rw [View.canon_unit_zero hz]
  simp only [View.ld_unit_zero (S := S8000x64) hz, View.ld_unit_zero (S := S64x64) hz]
  obtain ⟨e0, e1, e2, e3, e4, e5⟩ := idx_facts t
  funext j
  show k0_pay1 (F := Ideal) (iblk0 V c 0 t) (iblk0 V c 1 t) j = prod (xarr V c) (warr V c) (((cfg0.win 2).blk t).view.emb j)
  rw [pay_apply]
  unfold prod
  refine Finset.sum_congr rfl fun k _ => ?_
  show xarr V c (((cfg0.win 0).blk t).view.emb (lhsAt j k)) * warr V c (((cfg0.win 1).blk t).view.emb (rhsAt j k)) = _
  have h0 : ((cfg0.win 0).blk t).view.emb (lhsAt j k) = lhsAt (((cfg0.win 2).blk t).view.emb j) k := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 64 + 1 * k.val = k.val; omega
  have h1 : ((cfg0.win 1).blk t).view.emb (rhsAt j k) = rhsAt (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

/-- An index of the output array is in point `t`'s block iff each coordinate is in the block's range on its axis. -/
theorem mem_blk (t : Fin cfg0.N) (i : S960000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v1).slice (win0_2.rect t)).set ↔ _
  rw [View.set_slice_whole, Rect.mem_set_unit]
  exact Iff.rfl

/-- The 120 row blocks tile the output: row r is in block r / 8000. -/
theorem cover (i : S960000x64.Idx) : ∃ t : Fin cfg0.N, (cfg0.win 2).flush t = true ∧ i ∈ ((cfg0.win 2).blk t).view.set := by
  have hi0 : (i 0).val < 960000 := (i 0).isLt
  have hi1 : (i 1).val < 64 := (i 1).isLt
  obtain ⟨t, ht⟩ := idx_onto ⟨(i 0).val / 8000, by omega⟩
  have q0 : win0_2.index t (0 : Fin 2) = (i 0).val / 8000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 64 ≤ (i 1).val ∧ (i 1).val < win0_2.index t (1 : Fin 2) * 64 + 64; omega

/-- The output array after the launch: the product of the arrays the launch found. -/
theorem final (c : Dev nD) : (dat0 V c).arrAt 2 cfg0.N = prod (xarr V c) (warr V c) :=
  (dat0 V c).arrAt_eq_of_cover 2 (prod (xarr V c) (warr V c)) (fun t _ => flushed_eq V c t) cover

end Cert.KernelIdeal.Linear

end
-- ==== Proof.Aggregate.lean ====
/-
  The second launch, read as a value at the ideal instance: a [5000, 5000] matrix times a [5000, 12288] array plus a
  row of 1024 numbers repeated along the columns, on a 5 × 12 grid of [1000, 1024] output blocks. Entry (p, q) of the
  output is Σ_k f (p, k) · h (k, q) plus the row at q mod 1024. Block (a, b) of the output reads rows 1000 a … of the
  matrix, columns 1024 b … of the array and the whole row; inside it the column q = 1024 b + l meets the row at l, which
  is q mod 1024. So every point writes back its block of ONE whole-array function, and the 60 blocks tile the array.
-/
import proofs.«152533_j17841294148275_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Aggregate

open Cert.KernelIdeal Cert.KernelIdeal.Gen
open Idealize.ShloMosaic Idealize.ShloMosaic.TcCoe Idealize.SL.Sem
open Idealize.ShloMosaic.Pipeline (Dat)

/-- (row of `i`, k): where the left factor of the k-th product of entry `i` sits. -/
abbrev lhsAt {R C : Nat} (i : (⟨2, ![R, C]⟩ : Shape).Idx) (k : Fin 5000) : (⟨2, ![R, 5000]⟩ : Shape).Idx := fun a => match a with
  | ⟨0, _⟩ => ⟨(i 0).val, (i 0).isLt⟩
  | ⟨1, _⟩ => ⟨k.val, k.isLt⟩
/-- (k, column of `i`): where the right factor sits. -/
abbrev rhsAt {R C : Nat} (i : (⟨2, ![R, C]⟩ : Shape).Idx) (k : Fin 5000) : (⟨2, ![5000, C]⟩ : Shape).Idx := fun a => match a with
  | ⟨0, _⟩ => ⟨k.val, k.isLt⟩
  | ⟨1, _⟩ => ⟨(i 1).val, (i 1).isLt⟩
/-- The column of a block index, as an index of the row of 1024. -/
abbrev colAt (j : S1000x1024.Idx) : S1024.Idx := fun a => match a with
  | ⟨0, _⟩ => ⟨(j 1).val, (j 1).isLt⟩
/-- The column of an array index modulo 1024, as an index of the row of 1024. -/
abbrev tileAt (i : S5000x12288.Idx) : S1024.Idx := fun a => match a with
  | ⟨0, _⟩ => ⟨(i 1).val % 1024, Nat.mod_lt _ (by decide : 0 < 1024)⟩

/-- The output array: entry `i` = (p, q) is Σ_k f (p, k) · h (k, q) + bt (q mod 1024). -/
def agg (f : S5000x5000.Idx → EReal) (h : S5000x12288.Idx → EReal) (bt : S1024.Idx → EReal) : S5000x12288.Idx → EReal :=
  fun i => (∑ k : Fin 5000, f (lhsAt i k) * h (rhsAt i k)) + bt (tileAt i)

/-! ## The body's stored value at an index -/

theorem lhs_dot_0 (i : S1000x1024.Idx) (q : dot_S1000x5000_S5000x1024_S1000x1024_1_0_0_1_n_n.contr.Idx) :
    (dot_S1000x5000_S5000x1024_S1000x1024_1_0_0_1_n_n.lhsIdx i q 0).val = (i 0).val := by
  unfold DotDims.lhsIdx
  rw [dif_neg (show ¬(0 : Fin S1000x5000.rank) ∈ dot_S1000x5000_S5000x1024_S1000x1024_1_0_0_1_n_n.lhsBatch by decide), dif_pos (show (0 : Fin S1000x5000.rank) ∈ dot_S1000x5000_S5000x1024_S1000x1024_1_0_0_1_n_n.lhsNonContracting by decide)]
  rfl
theorem lhs_dot_1 (i : S1000x1024.Idx) (q : dot_S1000x5000_S5000x1024_S1000x1024_1_0_0_1_n_n.contr.Idx) :
    (dot_S1000x5000_S5000x1024_S1000x1024_1_0_0_1_n_n.lhsIdx i q 1).val = (q ⟨0, by decide⟩).val :=
  dot_S1000x5000_S5000x1024_S1000x1024_1_0_0_1_n_n.lhsIdx_val_of_single rfl i q
theorem rhs_dot_0 (i : S1000x1024.Idx) (q : dot_S1000x5000_S5000x1024_S1000x1024_1_0_0_1_n_n.contr.Idx) :
    (dot_S1000x5000_S5000x1024_S1000x1024_1_0_0_1_n_n.rhsIdx i q 0).val = (q ⟨0, by decide⟩).val :=
  dot_S1000x5000_S5000x1024_S1000x1024_1_0_0_1_n_n.rhsIdx_val_of_single rfl i q
theorem rhs_dot_1 (i : S1000x1024.Idx) (q : dot_S1000x5000_S5000x1024_S1000x1024_1_0_0_1_n_n.contr.Idx) :
    (dot_S1000x5000_S5000x1024_S1000x1024_1_0_0_1_n_n.rhsIdx i q 1).val = (i 1).val := by
  unfold DotDims.rhsIdx
  rw [dif_neg (show ¬(1 : Fin S5000x1024.rank) ∈ dot_S1000x5000_S5000x1024_S1000x1024_1_0_0_1_n_n.rhsBatch by decide), dif_pos (show (1 : Fin S5000x1024.rank) ∈ dot_S1000x5000_S5000x1024_S1000x1024_1_0_0_1_n_n.rhsNonContracting by decide)]
  rfl

/-- The matrix unit's product into a zero accumulator at block index `j` = (r, c): Σ_k x0 (r, k) · x1 (k, c). -/
theorem mm_apply (x0 : FVec Ideal S1000x5000 .bf16) (x1 : FVec Ideal S5000x1024 .bf16) (j : S1000x1024.Idx) :
    FloatOps.matmul (F := Ideal) dot_S1000x5000_S5000x1024_S1000x1024_1_0_0_1_n_n none x0 x1 (constant (F := Ideal) S1000x1024 .f32 0x00000000#32) j
      = ∑ k : Fin 5000, x0 (lhsAt j k) * x1 (rhsAt j k) := by
  rw [Ideal.matmul_constant_zero_apply, ← Equiv.sum_comp (ValueIdx.contrEquiv1 dot_S1000x5000_S5000x1024_S1000x1024_1_0_0_1_n_n 5000 rfl rfl).symm]
  refine Finset.sum_congr rfl fun k _ => ?_
  have hk := ValueIdx.contrEquiv1_symm_val dot_S1000x5000_S5000x1024_S1000x1024_1_0_0_1_n_n 5000 rfl rfl k
  have el : dot_S1000x5000_S5000x1024_S1000x1024_1_0_0_1_n_n.lhsIdx j ((ValueIdx.contrEquiv1 dot_S1000x5000_S5000x1024_S1000x1024_1_0_0_1_n_n 5000 rfl rfl).symm k) = lhsAt j k := funext fun a => Fin.ext (by
    match a with
    | ⟨0, _⟩ => exact lhs_dot_0 _ _
    | ⟨1, _⟩ => exact (lhs_dot_1 _ _).trans hk)
  have er : dot_S1000x5000_S5000x1024_S1000x1024_1_0_0_1_n_n.rhsIdx j ((ValueIdx.contrEquiv1 dot_S1000x5000_S5000x1024_S1000x1024_1_0_0_1_n_n 5000 rfl rfl).symm k) = rhsAt j k := funext fun a => Fin.ext (by
    match a with
    | ⟨0, _⟩ => exact (rhs_dot_0 _ _).trans hk
    | ⟨1, _⟩ => exact rhs_dot_1 _ _)
  rw [el, er]

/-- The row of 1024, given a leading unit axis and repeated down the 1000 rows, read at (r, c): the row at c. -/
theorem row_apply (x2 : FVec Ideal S1024 .f32) (j : S1000x1024.Idx) :
    broadcastTo S1000x1024 (shapeCast S1x1024 x2 shapeCasts_S1024_S1x1024) broadcasts_S1x1024_S1000x1024 j = x2 (colAt j) := by
  have hj1 : (j 1).val < 1024 := (j 1).isLt
  refine (broadcastTo_apply _ broadcasts_S1x1024_S1000x1024 j (fun a => match a with
      | ⟨0, _⟩ => ⟨0, Nat.one_pos⟩
      | ⟨1, _⟩ => ⟨(j 1).val, (j 1).isLt⟩) (fun a => match a with
    | ⟨0, _⟩ => by show 0 = if (1 : Nat) = 1 then 0 else _; rw [if_pos rfl]
    | ⟨1, _⟩ => by show (j 1).val = if (1024 : Nat) = 1 then 0 else (j 1).val; rw [if_neg (by decide)])).trans ?_
  exact shapeCast_apply x2 shapeCasts_S1024_S1x1024 _ (colAt j)
    (by rewrite [Shape.rowMajor_val_one, Shape.rowMajor_val_two]; show (j 1).val = 0 * 1024 + (j 1).val; omega)

/-- What the body stores, at block index `j` = (r, c): Σ_k x0 (r, k) · x1 (k, c) + x2 c. -/
theorem pay_apply (x0 : FVec Ideal S1000x5000 .bf16) (x1 : FVec Ideal S5000x1024 .bf16) (x2 : FVec Ideal S1024 .f32) (j : S1000x1024.Idx) :
    k1_pay1 (F := Ideal) x0 x1 x2 j = (∑ k : Fin 5000, x0 (lhsAt j k) * x1 (rhsAt j k)) + x2 (colAt j) := by
  unfold k1_pay1
  show FloatOps.matmul (F := Ideal) dot_S1000x5000_S5000x1024_S1000x1024_1_0_0_1_n_n none (shapeCast S1000x5000 x0 shapeCasts_S1000x5000_S1000x5000) (shapeCast S5000x1024 x1 shapeCasts_S5000x1024_S5000x1024) (constant (F := Ideal) S1000x1024 .f32 0x00000000#32) j
      + broadcastTo S1000x1024 (shapeCast S1x1024 x2 shapeCasts_S1024_S1x1024) broadcasts_S1x1024_S1000x1024 j = _
  rw [shapeCast_self, shapeCast_self, mm_apply, row_apply]

/-! ## From blocks to the array -/

variable (V : (c : Dev nD) → (b : Ref sig .tc) → Buf (Elt Ideal) ((c : Thread nD τ).loc b))

/-- The three arrays the launch reads, as it finds them, at their literal types. -/
abbrev farr (c : Dev nD) : S5000x5000.Idx → EReal := V c main_v3
abbrev harr (c : Dev nD) : S5000x12288.Idx → EReal := V c main_v2
abbrev barr (c : Dev nD) : S1024.Idx → EReal := V c main_v6

theorem hz2 : (![0, 0] : Fin 2 → Nat) = fun _ => 0 := funext fun a => by fin_cases a <;> rfl
theorem hz1 : (![0] : Fin 1 → Nat) = fun _ => 0 := funext fun a => by fin_cases a; rfl

/-- The printed index maps over the 60 points: the matrix's block moves with the output's along the rows, the array's
    along the columns; the other coordinates, and the row's one block, sit at 0. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 1) = 0
    ∧ win1_3.index t (0 : Fin 2) ≤ 4
    ∧ win1_3.index t (1 : Fin 2) ≤ 11 :=
  (by decide +kernel : ∀ t : Fin grid1.N, _)

/-- Every block of the 5 × 12 tiling is some point's. -/
theorem idx_onto : ∀ (q0 : Fin 5) (q1 : Fin 12), ∃ t : Fin cfg1.N, win1_3.index t = ![q0.val, q1.val] :=
  (by decide +kernel : ∀ (q0 : Fin 5) (q1 : Fin 12), ∃ t : Fin grid1.N, win1_3.index t = ![q0.val, q1.val])

/-- What point `t` writes back is block `t` of `agg` of the arrays as the launch finds them. -/
theorem flushed_eq (c : Dev nD) (t : Fin cfg1.N) :
    (dat1 V c).flushed 3 t = ((cfg1.win 3).blk t).view.read (Elt Ideal) (agg (farr V c) (harr V c) (barr V c)) := by
  show (cfg1.win 3).cut (grid1.coords t) ((dat1 V c).after 3 t) = _
  rw [after1_3]
  unfold out1_3
  rw [View.canon_unit_zero hz2]
  simp only [View.ld_unit_zero (S := S1000x5000) hz2, View.ld_unit_zero (S := S5000x1024) hz2, View.ld_unit_zero (S := S1024) hz1]
  obtain ⟨e0, e1, e2, e3, e4, e5, e6⟩ := idx_facts t
  funext j
  show k1_pay1 (F := Ideal) (iblk1 V c 0 t) (iblk1 V c 1 t) (iblk1 V c 2 t) j = agg (farr V c) (harr V c) (barr V c) (((cfg1.win 3).blk t).view.emb j)
  rw [pay_apply]
  unfold agg
  have hj1 : (j 1).val < 1024 := (j 1).isLt
  refine congrArg₂ (fun a b : EReal => a + b) (Finset.sum_congr rfl fun k _ => ?_) ?_
  · show farr V c (((cfg1.win 0).blk t).view.emb (lhsAt j k)) * harr V c (((cfg1.win 1).blk t).view.emb (rhsAt j k)) = _
    have h0 : ((cfg1.win 0).blk t).view.emb (lhsAt j k) = lhsAt (((cfg1.win 3).blk t).view.emb j) k := by
      funext a; apply Fin.ext
      match a with
      | ⟨0, _⟩ => show win1_0.index t (0 : Fin 2) * 1000 + 1 * (j 0).val = win1_3.index t (0 : Fin 2) * 1000 + 1 * (j 0).val; omega
      | ⟨1, _⟩ => show win1_0.index t (1 : Fin 2) * 5000 + 1 * k.val = k.val; omega
    have h1 : ((cfg1.win 1).blk t).view.emb (rhsAt j k) = rhsAt (((cfg1.win 3).blk t).view.emb j) k := by
      funext a; apply Fin.ext
      match a with
      | ⟨0, _⟩ => show win1_1.index t (0 : Fin 2) * 5000 + 1 * k.val = k.val; omega
      | ⟨1, _⟩ => show win1_1.index t (1 : Fin 2) * 1024 + 1 * (j 1).val = win1_3.index t (1 : Fin 2) * 1024 + 1 * (j 1).val; omega
    rw [h0, h1]
  · show barr V c (((cfg1.win 2).blk t).view.emb (colAt j)) = _
    refine congrArg (barr V c) ?_
    funext a; apply Fin.ext
    match a with
    | ⟨0, _⟩ => show win1_2.index t (0 : Fin 1) * 1024 + 1 * (j 1).val = (win1_3.index t (1 : Fin 2) * 1024 + 1 * (j 1).val) % 1024; omega

/-- An index of the output array is in point `t`'s block iff each coordinate is in the block's range on its axis. -/
theorem mem_blk (t : Fin cfg1.N) (i : S5000x12288.Idx) :
    i ∈ ((cfg1.win 3).blk t).view.set ↔ ∀ a : Fin 2, win1_3.index t a * S1000x1024.size a ≤ (i a).val ∧ (i a).val < win1_3.index t a * S1000x1024.size a + S1000x1024.size a := by
  show i ∈ ((View.whole main_v7).slice (win1_3.rect t)).set ↔ _
  rw [View.set_slice_whole, Rect.mem_set_unit]
  exact Iff.rfl

/-- The 60 blocks tile the output: entry (p, q) is in block (p / 1000, q / 1024). -/
theorem cover (i : S5000x12288.Idx) : ∃ t : Fin cfg1.N, (cfg1.win 3).flush t = true ∧ i ∈ ((cfg1.win 3).blk t).view.set := by
  have hi0 : (i 0).val < 5000 := (i 0).isLt
  have hi1 : (i 1).val < 12288 := (i 1).isLt
  obtain ⟨t, ht⟩ := idx_onto ⟨(i 0).val / 1000, by omega⟩ ⟨(i 1).val / 1024, by omega⟩
  have q0 : win1_3.index t (0 : Fin 2) = (i 0).val / 1000 := congrFun ht 0
  have q1 : win1_3.index t (1 : Fin 2) = (i 1).val / 1024 := congrFun ht 1
  refine ⟨t, flush1_3 t, ?_⟩
  rw [mem_blk]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 1024 ≤ (i 1).val ∧ (i 1).val < win1_3.index t (1 : Fin 2) * 1024 + 1024; omega

/-- The output array after the launch: `agg` of the arrays the launch found. -/
theorem final (c : Dev nD) : (dat1 V c).arrAt 3 cfg1.N = agg (farr V c) (harr V c) (barr V c) :=
  (dat1 V c).arrAt_eq_of_cover 3 (agg (farr V c) (harr V c) (barr V c)) (fun t _ => flushed_eq V c t) cover

end Cert.KernelIdeal.Aggregate

end
-- ==== Proof.Glue.lean ====
/-
  The kernel program's result array as ONE function of its four arguments, at the ideal instance. The program is:
  reshape x to [960000, 64]; the first launch (times the [64, 64] weight); reshape to [5000, 12288]; narrow the filter
  (the identity here); repeat the 64 biases 16 times into a row of 1024; the second launch (filter times array, plus the
  row along the columns); reshape to [960000, 64]. Each boundary between these stretches is read off the run's fold:
  a host operation's result is its function of its operands, a launch's output array is the whole-array function its
  blocks tile, and no stretch writes an array it does not produce.
-/
import proofs.«152533_j17841294148275_1_alg».proof.Proof.Linear
import proofs.«152533_j17841294148275_1_alg».proof.Proof.Aggregate
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

/-- The 64 biases as the row of 1024 the second launch reads: [64] → [1, 64] → [16, 64] → [1024]. -/
def biasRow (b : S64.Idx → EReal) : S1024.Idx → EReal :=
  shapeCast S1024 (broadcastInDim S16x64 ![0, 1] bcast_S1x64_S16x64_0_1 (shapeCast S1x64 b shapeCasts_S64_S1x64)) shapeCasts_S16x64_S1024

/-- The array the second launch multiplies the filter with: the first launch's product, reshaped. -/
def hidden (x : S16x64x12x5000.Idx → EReal) (w : S64x64.Idx → EReal) : S5000x12288.Idx → EReal :=
  shapeCast S5000x12288 (Linear.prod (shapeCast S960000x64 x shapeCasts_S16x64x12x5000_S960000x64) w) shapeCasts_S960000x64_S5000x12288

/-- The result array of the kernel program as one function of the arguments. -/
def result (x : S16x64x12x5000.Idx → EReal) (f : S5000x5000.Idx → EReal) (w : S64x64.Idx → EReal) (b : S64.Idx → EReal) :
    S960000x64.Idx → EReal :=
  shapeCast S960000x64 (Aggregate.agg f (hidden x w) (biasRow b)) shapeCasts_S5000x12288_S960000x64

variable (m : (ℓ : Loc nD τ sig) → Buf (Elt Ideal) ℓ) (ρ : Dev nD → PrngReg)

/-- The four arguments at launch, at their literal types. -/
abbrev xin (c : Dev nD) : S16x64x12x5000.Idx → EReal := m ((c : Thread nD τ).loc main_arg0)
abbrev fin (c : Dev nD) : S5000x5000.Idx → EReal := m ((c : Thread nD τ).loc main_arg1)
abbrev win (c : Dev nD) : S64x64.Idx → EReal := m ((c : Thread nD τ).loc main_arg2)
abbrev bin (c : Dev nD) : S64.Idx → EReal := m ((c : Thread nD τ).loc main_arg3)

/-! ## The first launch's entry and exit -/

theorem entry0_x (c : Dev nD) : Linear.xarr (V1 m ρ) c = shapeCast S960000x64 (xin m c) shapeCasts_S16x64x12x5000_S960000x64 := by
  show StableHlo.after hostOps0 (W0 m ρ c) (Proc.devRef .tc main_v0) = _
  after_results
  rfl

theorem entry0_w (c : Dev nD) : Linear.warr (V1 m ρ) c = win m c := by
  show StableHlo.after hostOps0 (W0 m ρ c) (Proc.devRef .tc main_arg2) = _
  after_results

theorem exit0 (c : Dev nD) : (W2 m ρ c (Proc.devRef .tc main_v1) : S960000x64.Idx → EReal)
    = Linear.prod (shapeCast S960000x64 (xin m c) shapeCasts_S16x64x12x5000_S960000x64) (win m c) := by
  rw [← entry0_x m ρ c, ← entry0_w m ρ c]
  exact (W2_arr m ρ c 2).trans (Linear.final (V1 m ρ) c)

theorem exit0_f (c : Dev nD) : (W2 m ρ c (Proc.devRef .tc main_arg1) : S5000x5000.Idx → EReal) = fin m c := by
  refine (W2_of_ne m ρ c main_arg1 (by decide)).trans ?_
  show StableHlo.after hostOps0 (W0 m ρ c) (Proc.devRef .tc main_arg1) = _
  after_results

theorem exit0_b (c : Dev nD) : (W2 m ρ c (Proc.devRef .tc main_arg3) : S64.Idx → EReal) = bin m c := by
  refine (W2_of_ne m ρ c main_arg3 (by decide)).trans ?_
  show StableHlo.after hostOps0 (W0 m ρ c) (Proc.devRef .tc main_arg3) = _
  after_results

/-! ## The second launch's entry and exit -/

theorem entry1_h (c : Dev nD) : Aggregate.harr (V3 m ρ) c = hidden (xin m c) (win m c) := by
  show StableHlo.after hostOps1 (W2 m ρ c) (Proc.devRef .tc main_v2) = _
  after_results
  rw [exit0 m ρ c]
  rfl

theorem entry1_f (c : Dev nD) : Aggregate.farr (V3 m ρ) c = fin m c := by
  show StableHlo.after hostOps1 (W2 m ρ c) (Proc.devRef .tc main_v3) = _
  after_results
  rw [exit0_f m ρ c]
  rfl

theorem entry1_b (c : Dev nD) : Aggregate.barr (V3 m ρ) c = biasRow (bin m c) := by
  show StableHlo.after hostOps1 (W2 m ρ c) (Proc.devRef .tc main_v6) = _
  after_results
  rw [exit0_b m ρ c]
  rfl

theorem exit1 (c : Dev nD) : (W4 m ρ c (Proc.devRef .tc main_v7) : S5000x12288.Idx → EReal)
    = Aggregate.agg (fin m c) (hidden (xin m c) (win m c)) (biasRow (bin m c)) := by
  rw [← entry1_f m ρ c, ← entry1_h m ρ c, ← entry1_b m ρ c]
  exact (W4_arr m ρ c 3).trans (Aggregate.final (V3 m ρ) c)

/-- The result array at the last boundary is `result` of the arguments at launch. -/
theorem last (c : Dev nD) : (W5 m ρ c (Proc.devRef .tc main_v8) : S960000x64.Idx → EReal)
    = result (xin m c) (fin m c) (win m c) (bin m c) := by
  show StableHlo.after hostOps2 (W4 m ρ c) (Proc.devRef .tc main_v8) = _
  after_results
  rw [exit1 m ρ c]
  rfl

end Cert.KernelIdeal.Glue

end
-- ==== Proof.Bridge.lean ====
/-
  The kernel program's result and the reference's are one function of the arguments, index by index, over the extended
  reals. Both are: entry i = (r, c) of the [960000, 64] result sits at flat position 64 r + c, which in the
  [5000, 12288] layout is (p, q) = ((64 r + c) / 12288, (64 r + c) mod 12288); its value is
  Σ_k filter (p, k) · h (k, q) + bias (c), where h (k, q) is entry ((12288 k + q) / 64, (12288 k + q) mod 64) of the
  [960000, 64] product of the reshaped x with the weight, itself a sum of 64 products. The kernel adds the bias inside
  the second launch from a row of 1024 that repeats the 64 biases: at column q it reads position q mod 1024 of the row,
  which holds bias ((q mod 1024) mod 64), and (q mod 1024) mod 64 = c because 64 divides 1024 and 12288. The same
  products are summed in the same order on both sides, so no law of the extended reals beyond rewriting equal indices
  is used, and the finiteness of the inputs is not needed.
-/
import proofs.«152533_j17841294148275_1_alg».proof.Proof.Glue
import proofs.«152533_j17841294148275_1_alg».proof.Proof.RefRead

set_option maxRecDepth 16384

noncomputable section

namespace Cert.Bridge

open Cert.KernelIdeal Cert.KernelIdeal.Gen
open Idealize.ShloMosaic Idealize.ShloMosaic.TcCoe Idealize.SL.Sem
open Cert.ReferenceIdeal.ReadP

/-- Position l of the row of 1024 holds bias l mod 64. -/
theorem biasRow_apply (b : S64.Idx → EReal) (l : S1024.Idx) :
    Glue.biasRow b l = b (fun a => match a with | ⟨0, _⟩ => ⟨(l 0).val % 64, Nat.mod_lt _ (by decide : 0 < 64)⟩) := by
  have hl : (l 0).val < 1024 := (l 0).isLt
  unfold Glue.biasRow
  refine (shapeCast_apply _ shapeCasts_S16x64_S1024 l (fun a => match a with
      | ⟨0, _⟩ => ⟨(l 0).val / 64, by show (l 0).val / 64 < 16; omega⟩
      | ⟨1, _⟩ => ⟨(l 0).val % 64, Nat.mod_lt _ (by decide : 0 < 64)⟩)
    (by rewrite [Shape.rowMajor_val_two, Shape.rowMajor_val_one]; show (l 0).val / 64 * 64 + (l 0).val % 64 = (l 0).val; omega)).trans ?_
  refine (broadcastInDim_apply _ bcast_S1x64_S16x64_0_1 _ _ (fun a => match a with
      | ⟨0, _⟩ => ⟨0, Nat.one_pos⟩
      | ⟨1, _⟩ => ⟨(l 0).val % 64, Nat.mod_lt _ (by decide : 0 < 64)⟩) (fun a => match a with
    | ⟨0, _⟩ => by show 0 = if (1 : Nat) = 1 then 0 else _; rw [if_pos rfl]
    | ⟨1, _⟩ => by show (l 0).val % 64 = if (64 : Nat) = 1 then 0 else (l 0).val % 64; rw [if_neg (by decide)])).trans ?_
  exact shapeCast_apply b shapeCasts_S64_S1x64 _ _
    (by rewrite [Shape.rowMajor_val_one, Shape.rowMajor_val_two]; show (l 0).val % 64 = 0 * 64 + (l 0).val % 64; omega)

/-- The two spellings of "(row of i, k)" and "(k, column of i)" for the first product agree. -/
theorem lhs1_eq (i : S960000x64.Idx) (k : Fin 64) : Linear.lhsAt i k = lidx_main_v1 i k :=
  funext fun a => Fin.ext (by match a with | ⟨0, _⟩ => rfl | ⟨1, _⟩ => rfl)
theorem rhs1_eq (i : S960000x64.Idx) (k : Fin 64) : Linear.rhsAt i k = ridx_main_v1 i k :=
  funext fun a => Fin.ext (by match a with | ⟨0, _⟩ => rfl | ⟨1, _⟩ => rfl)
/-- … and for the second. -/
theorem lhs3_eq (i : S5000x12288.Idx) (k : Fin 5000) : Aggregate.lhsAt i k = lidx_main_v3 i k :=
  funext fun a => Fin.ext (by match a with | ⟨0, _⟩ => rfl | ⟨1, _⟩ => rfl)
theorem rhs3_eq (i : S5000x12288.Idx) (k : Fin 5000) : Aggregate.rhsAt i k = ridx_main_v3 i k :=
  funext fun a => Fin.ext (by match a with | ⟨0, _⟩ => rfl | ⟨1, _⟩ => rfl)

/-- The array the second launch multiplies the filter with is the reference's reshaped first product. -/
theorem hidden_eq (x : S16x64x12x5000.Idx → EReal) (w : S64x64.Idx → EReal) :
    Glue.hidden x w = val_main_v2 (F := Ideal) x w := by
  funext q
  rw [val_main_v2_apply, val_main_v1_apply]
  unfold Glue.hidden
  refine (shapeCast_apply _ shapeCasts_S960000x64_S5000x12288 q (idx_main_v2 q)
    (by rewrite [Shape.rowMajor_val_two, Shape.rowMajor_val_two]; have h0 : (q 0).val < 5000 := (q 0).isLt; have h1 : (q 1).val < 12288 := (q 1).isLt; show ((q 0).val * 12288 + (q 1).val) / 64 * 64 + ((q 0).val * 12288 + (q 1).val) % 64 = (q 0).val * 12288 + (q 1).val; omega)).trans ?_
  unfold Linear.prod
  refine Finset.sum_congr rfl fun k _ => ?_
  rw [lhs1_eq, rhs1_eq]
  rfl

/-- The kernel program's result is the reference's last stage. -/
theorem result_eq (x : S16x64x12x5000.Idx → EReal) (f : S5000x5000.Idx → EReal) (w : S64x64.Idx → EReal) (b : S64.Idx → EReal) :
    Glue.result x f w b = val_main_v7 (F := Ideal) x f w b := by
  funext i
  have h0 : (i 0).val < 960000 := (i 0).isLt
  have h1 : (i 1).val < 64 := (i 1).isLt
  rw [val_main_v7_apply, val_main_v4_apply, val_main_v3_apply, val_main_v6_apply, val_main_v5_apply]
  unfold Glue.result
  refine (shapeCast_apply _ shapeCasts_S5000x12288_S960000x64 i (idx_main_v4 i)
    (by rewrite [Shape.rowMajor_val_two, Shape.rowMajor_val_two]; show ((i 0).val * 64 + (i 1).val) / 12288 * 12288 + ((i 0).val * 64 + (i 1).val) % 12288 = (i 0).val * 64 + (i 1).val; omega)).trans ?_
  unfold Aggregate.agg
  refine congrArg₂ (fun a b : EReal => a + b) (Finset.sum_congr rfl fun k _ => ?_) ?_
  · rw [lhs3_eq, rhs3_eq, hidden_eq]
  · rw [biasRow_apply]
    refine congrArg b ?_
    funext a; apply Fin.ext
    match a with
    | ⟨0, _⟩ => show ((i 0).val * 64 + (i 1).val) % 12288 % 1024 % 64 = (i 1).val; omega

end Cert.Bridge

end
-- ==== Proof.lean ====
/-
  A graph convolution: x [16, 64, 12, 5000] is reshaped row-major to [960000, 64] and multiplied by the [64, 64] weight;
  the product is reshaped to [5000, 12288] and multiplied from the left by the [5000, 5000] filter; the result is
  reshaped to [960000, 64] and the bias [64] is added along the last axis. The kernel program does the two products in
  two launches (8000 rows at a point; [1000, 1024] output blocks on a 5 × 12 grid) with the operands narrowed to bf16 on
  the way, and adds the bias inside the second launch from a row of 1024 = 16 × 64 repeated biases. Over the extended
  reals a change of float format is the identity and the matrix unit's product into a zero accumulator is the plain sum
  of products, so both programs compute, at entry (r, c),
      Σ_k filter (p, k) · (Σ_j xflat (s, j) · weight (j, d)) + bias (c),
  with (p, q) the position of 64 r + c in the [5000, 12288] layout and (s, d) the position of 12288 k + q in the
  [960000, 64] layout; the kernel's bias index (q mod 1024) mod 64 equals c since 64 divides 1024 and 12288.
  The sums are the same sums in the same order: only indices are rewritten, no distributivity or cancellation is used,
  and the precondition (finite inputs) is never opened.

  The frames of the two kernel programs are the generated ones; the reference's frame is its generated run with the
  result dropped. The kernel program's run with its result named is the generated launch called again with the result
  array in the post (KernelIdealRun); Linear and Aggregate read each launch's output array as one whole-array function
  (what a point writes back is its block of that function, and the blocks tile the array); Glue composes them through
  the host reshapes; Bridge identifies the composite with the reference's last stage.
-/
import proofs.«152533_j17841294148275_1_alg».proof.Defs
import proofs.«152533_j17841294148275_1_alg».proof.Proof.Gen.Kernel
import proofs.«152533_j17841294148275_1_alg».proof.Proof.Gen.Kernel.Frame
import proofs.«152533_j17841294148275_1_alg».proof.Proof.Gen.KernelIdeal
import proofs.«152533_j17841294148275_1_alg».proof.Proof.Gen.KernelIdeal.Frame
import proofs.«152533_j17841294148275_1_alg».proof.Proof.Gen.ReferenceIdeal
import proofs.«152533_j17841294148275_1_alg».proof.Proof.Gen.ReferenceIdeal.Run
import proofs.«152533_j17841294148275_1_alg».proof.Proof.Gen.Pre_finite_inputs
import proofs.«152533_j17841294148275_1_alg».proof.Proof.KernelIdealRun
import proofs.«152533_j17841294148275_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no ledger entry to restate. -/
theorem preserves : Cert.preserves_Kernel_KernelIdeal := trivial

/-- From memories that agree on the arguments both programs end with the result array at `Glue.result` of the
    arguments: the kernel program by its run read through the two launches, the reference by its run, whose last
    stage is that function (`Bridge.result_eq`). -/
theorem algebraic : Cert.algebraic_KernelIdeal_ReferenceIdeal := by
  intro m ρ m' ρ' _ hagree
  refine ⟨fun c => Cert.KernelIdeal.Glue.result (Cert.KernelIdeal.Glue.xin m c) (Cert.KernelIdeal.Glue.fin m c)
      (Cert.KernelIdeal.Glue.win m c) (Cert.KernelIdeal.Glue.bin m c), ?_, ?_⟩
  · exact (θ_run Cert.KernelIdeal.defs _ _).mono
      (fun r h c => ⟨(h c).1.trans (Cert.KernelIdeal.Glue.last m ρ c), (h c).2⟩) (Cert.KernelIdeal.GenP.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2, Cert.ReferenceIdeal.ReadP.val_main_v7_eq]
    exact (Cert.Bridge.result_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
